-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel

variable [Facts]

def fn_part2 {F : FTy → Type} [FloatOps F] (main_arg7 : FVec F S100000x128 .f32) (main_v33 : IVec S_ 1) : IVec S_ 1 :=
  let main_v34 : FVec F S100000x128 .f32 := Host.absf main_arg7
  let main_cst_12 : FVec F S_ .f32 := constant S_ .f32 0x7F800000#32
  let main_v35 : FVec F S100000x128 .f32 := broadcastInDim S100000x128 ![] bcast_S_S100000x128 main_cst_12
  let main_v36 : IVec S100000x128 1 := cmpf .olt main_v34 main_v35
  let main_c_13 : IVec S_ 1 := constantI S_ 1 1#1
  let main_v37 : IVec S_ 1 := (fun x v => Host.reduce IntOp.andi x v reducesTo_S100000x128_S_d0_1 h_S_) main_v36 main_c_13
  let main_v38 : IVec S_ 1 := andi main_v33 main_v37
  main_v38

def fn_part1 {F : FTy → Type} [FloatOps F] (main_arg4 : FVec F S100000x128 .f32) (main_arg5 : FVec F S100000x128 .f32) (main_arg6 : FVec F S100000x128 .f32) (main_arg7 : FVec F S100000x128 .f32) (main_v13 : IVec S_ 1) (main_v16 : IVec S100000x128 1) : IVec S_ 1 :=
  let main_c_5 : IVec S_ 1 := constantI S_ 1 1#1
  let main_v17 : IVec S_ 1 := (fun x v => Host.reduce IntOp.andi x v reducesTo_S100000x128_S_d0_1 h_S_) main_v16 main_c_5
  let main_v18 : IVec S_ 1 := andi main_v13 main_v17
  let main_v19 : FVec F S100000x128 .f32 := Host.absf main_arg4
  let main_cst_6 : FVec F S_ .f32 := constant S_ .f32 0x7F800000#32
  let main_v20 : FVec F S100000x128 .f32 := broadcastInDim S100000x128 ![] bcast_S_S100000x128 main_cst_6
  let main_v21 : IVec S100000x128 1 := cmpf .olt main_v19 main_v20
  let main_c_7 : IVec S_ 1 := constantI S_ 1 1#1
  let main_v22 : IVec S_ 1 := (fun x v => Host.reduce IntOp.andi x v reducesTo_S100000x128_S_d0_1 h_S_) main_v21 main_c_7
  let main_v23 : IVec S_ 1 := andi main_v18 main_v22
  let main_v24 : FVec F S100000x128 .f32 := Host.absf main_arg5
  let main_cst_8 : FVec F S_ .f32 := constant S_ .f32 0x7F800000#32
  let main_v25 : FVec F S100000x128 .f32 := broadcastInDim S100000x128 ![] bcast_S_S100000x128 main_cst_8
  let main_v26 : IVec S100000x128 1 := cmpf .olt main_v24 main_v25
  let main_c_9 : IVec S_ 1 := constantI S_ 1 1#1
  let main_v27 : IVec S_ 1 := (fun x v => Host.reduce IntOp.andi x v reducesTo_S100000x128_S_d0_1 h_S_) main_v26 main_c_9
  let main_v28 : IVec S_ 1 := andi main_v23 main_v27
  let main_v29 : FVec F S100000x128 .f32 := Host.absf main_arg6
  let main_cst_10 : FVec F S_ .f32 := constant S_ .f32 0x7F800000#32
  let main_v30 : FVec F S100000x128 .f32 := broadcastInDim S100000x128 ![] bcast_S_S100000x128 main_cst_10
  let main_v31 : IVec S100000x128 1 := cmpf .olt main_v29 main_v30
  let main_c_11 : IVec S_ 1 := constantI S_ 1 1#1
  let main_v32 : IVec S_ 1 := (fun x v => Host.reduce IntOp.andi x v reducesTo_S100000x128_S_d0_1 h_S_) main_v31 main_c_11
  let main_v33 : IVec S_ 1 := andi main_v28 main_v32
  fn_part2 (F := F) main_arg7 main_v33

def fn {F : FTy → Type} [FloatOps F] (main_arg0 : FVec F S100000x128 .f32) (main_arg1 : FVec F S100000x128 .f32) (main_arg2 : FVec F S100000x128 .f32) (main_arg3 : FVec F S100000x128 .f32) (main_arg4 : FVec F S100000x128 .f32) (main_arg5 : FVec F S100000x128 .f32) (main_arg6 : FVec F S100000x128 .f32) (main_arg7 : FVec F S100000x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S100000x128 .f32 := Host.absf main_arg3
  let main_cst_4 : FVec F S_ .f32 := constant S_ .f32 0x7F800000#32
  let main_v15 : FVec F S100000x128 .f32 := broadcastInDim S100000x128 ![] bcast_S_S100000x128 main_cst_4
  let main_v16 : IVec S100000x128 1 := cmpf .olt main_v14 main_v15
  fn_part1 (F := F) main_arg4 main_arg5 main_arg6 main_arg7 main_v13 main_v16
-- ==== Kernel.lean ====
abbrev S100000x128 : Shape := ⟨2, ![100000, 128]⟩
abbrev S2x1x1 : Shape := ⟨3, ![2, 1, 1]⟩
abbrev S1000x128 : Shape := ⟨2, ![1000, 128]⟩
abbrev S1x1x1 : Shape := ⟨3, ![1, 1, 1]⟩
abbrev S1x1 : Shape := ⟨2, ![1, 1]⟩
abbrev S1000 : Shape := ⟨1, ![1000]⟩
abbrev S1000x1 : Shape := ⟨2, ![1000, 1]⟩
abbrev S1 : Shape := ⟨1, ![1]⟩
abbrev S_ : Shape := ⟨0, ![]⟩

abbrev nBuf : Space → Nat
  | .hbm => 13
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x128, .f32⟩
  | .hbm, ⟨3, _⟩ => ⟨S100000x128, .f32⟩
  | .hbm, ⟨4, _⟩ => ⟨S100000x128, .f32⟩
  | .hbm, ⟨5, _⟩ => ⟨S100000x128, .f32⟩
  | .hbm, ⟨6, _⟩ => ⟨S100000x128, .f32⟩
  | .hbm, ⟨7, _⟩ => ⟨S100000x128, .f32⟩
  | .hbm, ⟨8, _⟩ => ⟨S2x1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S1x1x1, .f32⟩
  | .local _ .vmem, ⟨17, _⟩ => ⟨S1x1x1, .f32⟩
  | .local _ .vmem, ⟨18, _⟩ => ⟨S1x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v657 : BitVec 1 := Scalar.cmpi .eq arg1 c49_i32
  let v658 : BitVec 32 := Scalar.extui v657
  let c0_i32_228 : BitVec 32 := 0#32
  let v659 : BitVec 1 := Scalar.cmpi .ne v658 c0_i32_228
  v659

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1000x128_S1000x128_0_0 : ∀ a, (![0, 0] : Fin 2 → Nat) a + S1000x128.size a ≤ S1000x128.size a
  h_S1000x128 : 0 < S1000x128.numel
  reduces_S1000x128_S1000 : S1000x128.Reduces [1] S1000
  shapeCasts_S1000_S1000x1 : S1000.ShapeCasts S1000x1
  broadcasts_S1000x1_S1000x128 : S1000x1.Broadcasts S1000x128
  reduces_S1000x1_S1 : S1000x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S100000x128.size a
  hwx0_1 : ∀ i : grid0.Coords, EltTy.bits .f32 = 32 ∨ (Rect.block (s := S100000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S100000x128.size a
  hwx0_2 : ∀ i : grid0.Coords, EltTy.bits .f32 = 32 ∨ (Rect.block (s := S100000x128) S1000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S100000x128.size a
  hwx0_3 : ∀ i : grid0.Coords, EltTy.bits .f32 = 32 ∨ (Rect.block (s := S100000x128) S1000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x128.size a ≤ S100000x128.size a
  hwx0_4 : ∀ i : grid0.Coords, EltTy.bits .f32 = 32 ∨ (Rect.block (s := S100000x128) S1000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S100000x128.size a
  hwx0_5 : ∀ i : grid0.Coords, EltTy.bits .f32 = 32 ∨ (Rect.block (s := S100000x128) S1000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x128.size a ≤ S100000x128.size a
  hwx0_6 : ∀ i : grid0.Coords, EltTy.bits .f32 = 32 ∨ (Rect.block (s := S100000x128) S1000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x128.size a ≤ S100000x128.size a
  hwx0_7 : ∀ i : grid0.Coords, EltTy.bits .f32 = 32 ∨ (Rect.block (s := S100000x128) S1000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S2x1x1.size a
  hwx0_8 : ∀ i : grid0.Coords, EltTy.bits .f32 = 32 ∨ (Rect.block (s := S2x1x1) S1x1x1.size (cc0_transform_8 i) (hinb0_8 i)).WholeWords (EltTy.packing .f32)

variable [Facts₀]

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1000x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1000x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x1x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S100000x128 : Shape := ⟨2, ![100000, 128]⟩
abbrev S100000x1x128 : Shape := ⟨3, ![100000, 1, 128]⟩
abbrev S100000x8x128 : Shape := ⟨3, ![100000, 8, 128]⟩
abbrev S_ : Shape := ⟨0, ![]⟩
abbrev S100000x8 : Shape := ⟨2, ![100000, 8]⟩
abbrev S100000x8x1 : Shape := ⟨3, ![100000, 8, 1]⟩
abbrev S100000x8x8 : Shape := ⟨3, ![100000, 8, 8]⟩
abbrev S8x8 : Shape := ⟨2, ![8, 8]⟩
abbrev S1x8x8 : Shape := ⟨3, ![1, 8, 8]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x128, .f32⟩
  | .hbm, ⟨3, _⟩ => ⟨S100000x128, .f32⟩
  | .hbm, ⟨4, _⟩ => ⟨S100000x128, .f32⟩
  | .hbm, ⟨5, _⟩ => ⟨S100000x128, .f32⟩
  | .hbm, ⟨6, _⟩ => ⟨S100000x128, .f32⟩
  | .hbm, ⟨7, _⟩ => ⟨S100000x128, .f32⟩
  | .hbm, ⟨8, _⟩ => ⟨S100000x1x128, .f32⟩
  | .hbm, ⟨9, _⟩ => ⟨S100000x1x128, .f32⟩
  | .hbm, ⟨10, _⟩ => ⟨S100000x1x128, .f32⟩
  | .hbm, ⟨11, _⟩ => ⟨S100000x1x128, .f32⟩
  | .hbm, ⟨12, _⟩ => ⟨S100000x1x128, .f32⟩
  | .hbm, ⟨13, _⟩ => ⟨S100000x1x128, .f32⟩
  | .hbm, ⟨14, _⟩ => ⟨S100000x1x128, .f32⟩
  | .hbm, ⟨15, _⟩ => ⟨S100000x1x128, .f32⟩
  | .hbm, ⟨16, _⟩ => ⟨S100000x8x128, .f32⟩
  | .hbm, ⟨17, _⟩ => ⟨S100000x8x128, .f32⟩
  | .hbm, ⟨18, _⟩ => ⟨S_, .f32⟩
  | .hbm, ⟨19, _⟩ => ⟨S100000x8, .f32⟩
  | .hbm, ⟨20, _⟩ => ⟨S100000x8x1, .f32⟩
  | .hbm, ⟨21, _⟩ => ⟨S100000x8x1, .f32⟩
  | .hbm, ⟨22, _⟩ => ⟨S_, .f32⟩
  | .hbm, ⟨23, _⟩ => ⟨S100000x8x1, .f32⟩
  | .hbm, ⟨24, _⟩ => ⟨S100000x8x1, .f32⟩
  | .hbm, ⟨25, _⟩ => ⟨S100000x8x128, .f32⟩
  | .hbm, ⟨26, _⟩ => ⟨S100000x8x128, .f32⟩
  | .hbm, ⟨27, _⟩ => ⟨S100000x8x8, .f32⟩
  | .hbm, ⟨28, _⟩ => ⟨S8x8, .i32⟩
  | .hbm, ⟨29, _⟩ => ⟨S8x8, .i32⟩
  | .hbm, ⟨30, _⟩ => ⟨S_, .i32⟩
  | .hbm, ⟨31, _⟩ => ⟨S8x8, .i32⟩
  | .hbm, ⟨32, _⟩ => ⟨S8x8, .i32⟩
  | .hbm, ⟨33, _⟩ => ⟨S8x8, .i1⟩
  | .hbm, ⟨34, _⟩ => ⟨S8x8, .f32⟩
  | .hbm, ⟨35, _⟩ => ⟨S1x8x8, .f32⟩
  | .hbm, ⟨36, _⟩ => ⟨S100000x8x8, .f32⟩
  | .hbm, ⟨37, _⟩ => ⟨S100000x8x8, .f32⟩
  | .hbm, ⟨38, _⟩ => ⟨S100000x8x8, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_0 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩

abbrev nD : Nat := 1
abbrev τ : Topo := Topo.v7x

variable {F : FTy → Type} [FloatOps F]

class Facts₀ : Prop where
  bcast_S100000x128_S100000x1x128_0_2 : S100000x128.BroadcastsInDim S100000x1x128 (![0, 2] : Fin 2 → Fin S100000x1x128.rank)
  concatenates_S100000x1x128_S100000x1x128_S100000x1x128_S100000x1x128_S100000x1x128_S100000x1x128_S100000x1x128_S100000x1x128_S100000x8x128_d1 : Shape.Concatenates [S100000x1x128, S100000x1x128, S100000x1x128, S100000x1x128, S100000x1x128, S100000x1x128, S100000x1x128, S100000x1x128] S100000x8x128 1
  reducesTo_S100000x8x128_S100000x8_d2 : S100000x8x128.ReducesTo [2] S100000x8
  h_S_ : 0 < S_.numel
  bcast_S100000x8_S100000x8x1_0_1 : S100000x8.BroadcastsInDim S100000x8x1 (![0, 1] : Fin 2 → Fin S100000x8x1.rank)
  bcast_S_S100000x8x1 : S_.BroadcastsInDim S100000x8x1 (![] : Fin 0 → Fin S100000x8x1.rank)
  bcast_S100000x8x1_S100000x8x128_0_1_2 : S100000x8x1.BroadcastsInDim S100000x8x128 (![0, 1, 2] : Fin 3 → Fin S100000x8x128.rank)
  bcast_S_S8x8 : S_.BroadcastsInDim S8x8 (![] : Fin 0 → Fin S8x8.rank)
  bcast_S8x8_S1x8x8_1_2 : S8x8.BroadcastsInDim S1x8x8 (![1, 2] : Fin 2 → Fin S1x8x8.rank)
  bcast_S1x8x8_S100000x8x8_0_1_2 : S1x8x8.BroadcastsInDim S100000x8x8 (![0, 1, 2] : Fin 3 → Fin S100000x8x8.rank)
  reducesTo_S100000x8x8_S_d0_1_2 : S100000x8x8.ReducesTo [0, 1, 2] S_
  dot_S100000x8x128_S100000x8x128_S100000x8x8_2_2_1_1_0_0_wf : DotDims.WF S100000x8x128 S100000x8x128 S100000x8x8 [2] [2] [1] [1] [0] [0]

variable [Facts₀]

def dot_S100000x8x128_S100000x8x128_S100000x8x8_2_2_1_1_0_0 : DotDims S100000x8x128 S100000x8x128 S100000x8x8 where
  lhsContracting := [2]
  rhsContracting := [2]
  lhsNonContracting := [1]
  rhsNonContracting := [1]
  lhsBatch := [0]
  rhsBatch := [0]
  wf := dot_S100000x8x128_S100000x8x128_S100000x8x8_2_2_1_1_0_0_wf

class Facts : Prop extends Facts₀ where

variable [Facts]
-- ==== Proof.Tile.lean ====
/-
  One grid point's arithmetic as ONE function of the eight input blocks and of the running total it adds to.

  A block is 1000 samples' rows of one head. Each block is scaled row by row to (clamped) unit length; for every
  ordered pair (k, l) of heads, in row-major order of (k, l), the rows' inner products are formed, the identity's
  entry subtracted, the result squared and summed over the 1000 rows; the 64 sums are added one after another to a
  zero, and that total is added to the running total `acc`.
-/
import proofs.«170730_j78932908966303_1_alg».proof.Proof.Gen.KernelIdeal.Skeleton

noncomputable section

namespace Cert.KernelIdeal.Tile

open Idealize.ShloMosaic Cert.KernelIdeal Cert.KernelIdeal.Gen

variable {F : FTy → Type} [FloatOps F]

/-- The body's stored value at one grid point: the eight blocks scaled (`n0` … `n7`), the 64 pair sums accumulated
    through the body's thirteen partial totals (`t3` … `t14`), the last one added to the running total `acc`. -/
def tileAcc (x0 x1 x2 x3 x4 x5 x6 x7 : Vec F S1000x128 .f32) (acc : Vec F S1x1 .f32) : FVec F S1x1 .f32 :=
  have n0 : FVec F S1000x128 .f32 := k0_pay4 x0
  have n1 : FVec F S1000x128 .f32 := k0_pay5 x1
  have n2 : FVec F S1000x128 .f32 := k0_pay7 x2 (k0_pay6 x2)
  have n3 : FVec F S1000x128 .f32 := k0_pay8 x3
  have n4 : FVec F S1000x128 .f32 := k0_pay9 x4
  have n5 : FVec F S1000x128 .f32 := k0_pay10 x5
  have n6 : FVec F S1000x128 .f32 := k0_pay11 x6
  have n7 : FVec F S1000x128 .f32 := k0_pay12 x7
  have t3 : FVec F S1x1 .f32 := k0_pay16 n0 n1 n2 n3 n4 (k0_pay13 (F := F)) (k0_pay14 n0) (k0_pay15 (F := F))
  have t4 : FVec F S1x1 .f32 := k0_pay19 n0 n1 n6 n7 t3 (k0_pay17 n0 n5) (k0_pay18 (F := F))
  have t5 : FVec F S1x1 .f32 := k0_pay22 n1 n3 n4 n5 n6 t4 (k0_pay20 n1 n2) (k0_pay21 (F := F))
  have t6 : FVec F S1x1 .f32 := k0_pay25 n0 n1 n2 n3 t5 (k0_pay23 n1 n7) (k0_pay24 (F := F))
  have t7 : FVec F S1x1 .f32 := k0_pay28 n0 n2 n3 n5 n6 n7 t6 (k0_pay26 n2 n4) (k0_pay27 (F := F))
  have t8 : FVec F S1x1 .f32 := k0_pay31 n2 n3 n4 n5 t7 (k0_pay29 n1 n3) (k0_pay30 (F := F))
  have t9 : FVec F S1x1 .f32 := k0_pay34 n0 n1 n2 n3 n4 n7 t8 (k0_pay32 n3 n6) (k0_pay33 (F := F))
  have t10 : FVec F S1x1 .f32 := k0_pay37 n4 n5 n6 n7 t9 (k0_pay35 n3 n4) (k0_pay36 (F := F))
  have t11 : FVec F S1x1 .f32 := k0_pay40 n1 n2 n3 n4 n5 t10 (k0_pay38 n0 n5) (k0_pay39 (F := F))
  have t12 : FVec F S1x1 .f32 := k0_pay43 n0 n1 n5 n6 n7 t11 (k0_pay41 n5) (k0_pay42 (F := F))
  have t13 : FVec F S1x1 .f32 := k0_pay46 n3 n4 n5 n6 t12 (k0_pay44 n2 n6) (k0_pay45 (F := F))
  have t14 : FVec F S1x1 .f32 := k0_pay49 n0 n1 n2 n3 n7 t13 (k0_pay47 n6 n7) (k0_pay48 (F := F))
  k0_pay1 (k0_pay52 n5 n6 n7 t14 (k0_pay50 n4 n7) (k0_pay51 (F := F)) acc)

end Cert.KernelIdeal.Tile

end
-- ==== Proof.Pieces.lean ====
/-
  What one grid point's run leaves behind, as values: the running total kept between grid points, and, at the last
  point of a core's fifty, the output block.

  The body has three courses. At a core's first point it first resets the running total to a zero block, then adds
  the point's total to it. At the points in between it adds the point's total to what the point before left. At a
  core's last point it does the same and then copies the running total into the output block. In every course the
  value stored last is ONE function, `Tile.tileAcc`, of the eight input blocks and of the running total found.
-/
import proofs.«170730_j78932908966303_1_alg».proof.Proof.Gen.KernelIdeal.Frame
import proofs.«170730_j78932908966303_1_alg».proof.Proof.Tile
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen Cert.KernelIdeal.Tile

variable {F : FTy → Type} [FloatOps F]

/-- The offsets of a whole rank-2 block are zero. -/
theorem hz2 : (![0, 0] : Fin 2 → Nat) = fun _ => 0 := funext fun a => by fin_cases a <;> rfl
/-- The offsets of a whole rank-3 block are zero. -/
theorem hz3 : (![0, 0, 0] : Fin 3 → Nat) = fun _ => 0 := funext fun a => by fin_cases a <;> rfl

/-- A core's FIRST point: the running total is reset to the zero block, read back, and the point's total added: the
    later store covers the reset, and what it stores is `tileAcc` of the blocks over the zero block. -/
theorem sout_A (c : Dev nD) (i : grid0.Coords) (arg2 : Memref sig .tc .vmem S1000x128 .f32) (harg2 : arg2.IsWhole) (arg3 : Memref sig .tc .vmem S1000x128 .f32) (harg3 : arg3.IsWhole) (arg4 : Memref sig .tc .vmem S1000x128 .f32) (harg4 : arg4.IsWhole) (arg5 : Memref sig .tc .vmem S1000x128 .f32) (harg5 : arg5.IsWhole) (arg6 : Memref sig .tc .vmem S1000x128 .f32) (harg6 : arg6.IsWhole) (arg7 : Memref sig .tc .vmem S1000x128 .f32) (harg7 : arg7.IsWhole) (arg8 : Memref sig .tc .vmem S1000x128 .f32) (harg8 : arg8.IsWhole) (arg9 : Memref sig .tc .vmem S1000x128 .f32) (harg9 : arg9.IsWhole) (arg10 : Memref sig .tc .vmem S1x1x1 .f32) (harg10 : arg10.IsWhole) (arg11 : Memref sig .tc .vmem S1x1 .f32) (harg11 : arg11.IsWhole) (hc0 : cond0_0 i) (hc1 : ¬cond0_1 i) (x0 x1 x2 x3 x4 x5 x6 x7 : Vec F S1000x128 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 x7 = tileAcc x0 x1 x2 x3 x4 x5 x6 x7 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread, harg8.read_unread, harg9.read_unread, View.ld_unit_zero (S := S1000x128) hz2, View.ld_unit_zero (S := S1x1) hz2, View.readCov_unit_zero (S := S1x1) _ hz2]
  rfl

/-- A point that is neither first nor last: one covering store of `tileAcc` of the blocks over the running total
    `xs0` the point before left. -/
theorem sout_B (c : Dev nD) (i : grid0.Coords) (arg2 : Memref sig .tc .vmem S1000x128 .f32) (harg2 : arg2.IsWhole) (arg3 : Memref sig .tc .vmem S1000x128 .f32) (harg3 : arg3.IsWhole) (arg4 : Memref sig .tc .vmem S1000x128 .f32) (harg4 : arg4.IsWhole) (arg5 : Memref sig .tc .vmem S1000x128 .f32) (harg5 : arg5.IsWhole) (arg6 : Memref sig .tc .vmem S1000x128 .f32) (harg6 : arg6.IsWhole) (arg7 : Memref sig .tc .vmem S1000x128 .f32) (harg7 : arg7.IsWhole) (arg8 : Memref sig .tc .vmem S1000x128 .f32) (harg8 : arg8.IsWhole) (arg9 : Memref sig .tc .vmem S1000x128 .f32) (harg9 : arg9.IsWhole) (arg10 : Memref sig .tc .vmem S1x1x1 .f32) (harg10 : arg10.IsWhole) (arg11 : Memref sig .tc .vmem S1x1 .f32) (harg11 : arg11.IsWhole) (hc0 : ¬cond0_0 i) (hc1 : ¬cond0_1 i) (x0 x1 x2 x3 x4 x5 x6 x7 : Vec F S1000x128 .f32) (xs0 : Vec F S1x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 x7 xs0 = tileAcc x0 x1 x2 x3 x4 x5 x6 x7 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg11.read_unread, View.ld_unit_zero (S := S1000x128) hz2, View.ld_unit_zero (S := S1x1) hz2, View.readCov_unit_zero (S := S1x1) _ hz2]
  rfl

/-- A core's LAST point leaves the same in the running total … -/
theorem sout_C (c : Dev nD) (i : grid0.Coords) (arg2 : Memref sig .tc .vmem S1000x128 .f32) (harg2 : arg2.IsWhole) (arg3 : Memref sig .tc .vmem S1000x128 .f32) (harg3 : arg3.IsWhole) (arg4 : Memref sig .tc .vmem S1000x128 .f32) (harg4 : arg4.IsWhole) (arg5 : Memref sig .tc .vmem S1000x128 .f32) (harg5 : arg5.IsWhole) (arg6 : Memref sig .tc .vmem S1000x128 .f32) (harg6 : arg6.IsWhole) (arg7 : Memref sig .tc .vmem S1000x128 .f32) (harg7 : arg7.IsWhole) (arg8 : Memref sig .tc .vmem S1000x128 .f32) (harg8 : arg8.IsWhole) (arg9 : Memref sig .tc .vmem S1000x128 .f32) (harg9 : arg9.IsWhole) (arg10 : Memref sig .tc .vmem S1x1x1 .f32) (harg10 : arg10.IsWhole) (arg11 : Memref sig .tc .vmem S1x1 .f32) (harg11 : arg11.IsWhole) (hc0 : ¬cond0_0 i) (hc1 : cond0_1 i) (x0 x1 x2 x3 x4 x5 x6 x7 : Vec F S1000x128 .f32) (xs0 : Vec F S1x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 x7 xs0 = tileAcc x0 x1 x2 x3 x4 x5 x6 x7 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg11.read_unread, View.ld_unit_zero (S := S1000x128) hz2, View.ld_unit_zero (S := S1x1) hz2, View.readCov_unit_zero (S := S1x1) _ hz2]
  rfl

/-- … and copies it, re-laid from [1,1] to [1,1,1], into the output block. -/
theorem out_C (c : Dev nD) (i : grid0.Coords) (arg2 : Memref sig .tc .vmem S1000x128 .f32) (harg2 : arg2.IsWhole) (arg3 : Memref sig .tc .vmem S1000x128 .f32) (harg3 : arg3.IsWhole) (arg4 : Memref sig .tc .vmem S1000x128 .f32) (harg4 : arg4.IsWhole) (arg5 : Memref sig .tc .vmem S1000x128 .f32) (harg5 : arg5.IsWhole) (arg6 : Memref sig .tc .vmem S1000x128 .f32) (harg6 : arg6.IsWhole) (arg7 : Memref sig .tc .vmem S1000x128 .f32) (harg7 : arg7.IsWhole) (arg8 : Memref sig .tc .vmem S1000x128 .f32) (harg8 : arg8.IsWhole) (arg9 : Memref sig .tc .vmem S1000x128 .f32) (harg9 : arg9.IsWhole) (arg10 : Memref sig .tc .vmem S1x1x1 .f32) (harg10 : arg10.IsWhole) (arg11 : Memref sig .tc .vmem S1x1 .f32) (harg11 : arg11.IsWhole) (hc0 : ¬cond0_0 i) (hc1 : cond0_1 i) (x0 x1 x2 x3 x4 x5 x6 x7 : Vec F S1000x128 .f32) (xs0 : Vec F S1x1 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay2 (tileAcc x0 x1 x2 x3 x4 x5 x6 x7 xs0) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg11.read_unread, View.ld_unit_zero (S := S1000x128) hz2, View.ld_unit_zero (S := S1x1) hz2, View.readCov_unit_zero (S := S1x1) _ hz2]
  rfl

end Cert.KernelIdeal.Pieces

end
-- ==== Proof.Loss.lean ====
/-
  The quantity both programs compute, as one function of the eight argument arrays over the extended reals.

  Each of the eight arrays holds, for every sample n, a row of 128 numbers (one "head" of the sample). A row u is
  scaled to unit length, its length clamped from below: u d / max (sqrt (Σ_d u d * u d)) eps. The correlation of two
  heads of one sample is the inner product of their unit rows. The penalty of a sample is the sum, over all 64
  ordered pairs (k, l) of heads, of the squared deviation of the correlation of heads k and l from the identity
  matrix's entry (1 on the diagonal, 0 off it). The result is the sum of all samples' penalties divided by the
  number of samples.

  No program is imported here: the definitions are over literal index types, so that the kernel's side and the
  reference's side are each proved equal to the same term.
-/
import Idealize.ShloMosaic.PureOps.Ideal
import Idealize.ShloMosaic.Lib.ValueIdx

noncomputable section

open scoped BigOperators

namespace Cert.Loss

open Idealize.ShloMosaic Idealize.ShloMosaic.ValueIdx

/-- The clamp on a row's length: the extended real its word denotes (about 1e-8). -/
abbrev eps : EReal := Ideal.ofBits .f32 0x322BCC77#32

/-- The number of samples, 100000, as the extended real its word denotes. -/
abbrev count : EReal := Ideal.ofBits .f32 0x47C35000#32

/-- A row's Euclidean length, clamped from below by `eps`. -/
def len (u : Fin 128 → EReal) : EReal := max (Ideal.sqrt (∑ d, u d * u d)) eps

/-- The row scaled by its clamped length. -/
def unit (u : Fin 128 → EReal) (d : Fin 128) : EReal := Ideal.div (u d) (len u)

/-- The correlation of two rows: the inner product of the two scaled rows. -/
def corr (u v : Fin 128 → EReal) : EReal := ∑ d, unit u d * unit v d

/-- The squared deviation of the correlation of two rows from a target `t`. -/
def dev (u v : Fin 128 → EReal) (t : EReal) : EReal := (corr u v - t) * (corr u v - t)

/-- The identity matrix's entry. -/
def eye (k l : Fin 8) : EReal := if k = l then 1 else 0

/-- One sample's penalty: over every ordered pair of its eight heads, the squared deviation of their correlation
    from the identity's entry. -/
def sample (h : Fin 8 → Fin 128 → EReal) : EReal := ∑ k, ∑ l, dev (h k) (h l) (eye k l)

/-- The loss: the samples' penalties summed, divided by their number. -/
def loss (h : Fin 8 → Fin 100000 → Fin 128 → EReal) : EReal :=
  Ideal.div (∑ n, sample (fun k => h k n)) count

/-- The eight arrays as heads: head k of sample n is row n of array k. -/
def heads (x : Fin 8 → (⟨2, ![100000, 128]⟩ : Shape).Idx → EReal) : Fin 8 → Fin 100000 → Fin 128 → EReal :=
  fun k n d => x k (ix2 n d)

end Cert.Loss

end
-- ==== Proof.TileRead.lean ====
/-
  One grid point's arithmetic read at the ideal instance.

  The body scales each of its eight blocks row by row to clamped unit length, and for every ordered pair (k, l) of
  heads, k outer and l inner, adds to a running total the sum over the block's 1000 rows of the squared deviation of the
  two scaled rows' inner product from the identity's entry; the total starts at a zero and is added to the accumulator.
  Read at the accumulator's one entry this is the accumulator plus the sum over the rows of the sample's penalty: both
  are the same 64 sums over the rows, the body adding them one after another, the penalty grouping them by row first.
  Over the extended reals addition is commutative and associative and a zero is neutral, so no finiteness is needed.

  First, for every float family, three building blocks (the rows' inner products as a column, the sum over the rows of a
  squared difference of columns, the scaling) and each generated payload as a composition of them; then each block read
  at an index at the ideal instance; then the 64-term chain against the double sum over the heads.
-/
import proofs.«170730_j78932908966303_1_alg».proof.Proof.Tile
import proofs.«170730_j78932908966303_1_alg».proof.Proof.Loss
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

noncomputable section

open scoped BigOperators

namespace Cert.KernelIdeal.Tile

open Idealize.ShloMosaic Idealize.ShloMosaic.ValueIdx Cert.KernelIdeal Cert.KernelIdeal.Gen

section Blocks

variable {F : FTy → Type} [FloatOps F]

/-- The inner products of the rows of two blocks, as a column: entry r is Σ_d a[r,d]·b[r,d]. -/
def rowDot (a b : FVec F S1000x128 .f32) : FVec F S1000x1 .f32 :=
  shapeCast S1000x1 (multiReduction .add [1] S1000 (mulf a b) 0x00000000#32 reduces_S1000x128_S1000 (.inl rfl) rfl)
    shapeCasts_S1000_S1000x1

/-- The column whose every entry is the number the word w denotes. -/
def col (w : BitVec 32) : FVec F S1000x1 .f32 := broadcast S1000x1 (Scalar.ofBits .f32 w)

/-- The sum over the rows of the squared difference of two columns, as a one-entry value. -/
def sqSum (c t : FVec F S1000x1 .f32) : FVec F S1x1 .f32 :=
  shapeCast S1x1 (multiReduction .add [0] S1 (mulf (subf c t) (subf c t)) 0x00000000#32 reduces_S1000x1_S1 (.inl rfl) rfl)
    shapeCasts_S1_S1x1

/-- One pair's contribution added to a running total: the total plus Σ_r (Σ_d a[r,d]·b[r,d] − w)². -/
def step (t : FVec F S1x1 .f32) (a b : FVec F S1000x128 .f32) (w : BitVec 32) : FVec F S1x1 .f32 :=
  addf t (sqSum (rowDot a b) (col w))

/-- A block scaled row by row to clamped unit length: x[r,d] / max(sqrt(Σ_d x[r,d]²), eps). -/
def scale (x : FVec F S1000x128 .f32) : FVec F S1000x128 .f32 :=
  divf x (broadcastTo S1000x128 (maximumf (sqrt (rowDot x x)) (col 0x322BCC77#32)) broadcasts_S1000x1_S1000x128)

/-- All 64 ordered pairs (k, l) of eight blocks, k outer and l inner, added one after another to a running total;
    the target is the one word on the diagonal and the zero word off it. -/
def total (t : FVec F S1x1 .f32) (n0 n1 n2 n3 n4 n5 n6 n7 : FVec F S1000x128 .f32) : FVec F S1x1 .f32 :=
  step (step (step (step (step (step (step (step (step (step (step (step (step (step (step (step (step (step (step (step (step (step (step (step (step (step (step (step (step (step (step (step (step (step (step (step (step (step (step (step (step (step (step (step (step (step (step (step (step (step (step (step (step (step (step (step (step (step (step (step (step (step (step (step t n0 n0 0x3F800000#32) n0 n1 0x00000000#32) n0 n2 0x00000000#32) n0 n3 0x00000000#32) n0 n4 0x00000000#32) n0 n5 0x00000000#32) n0 n6 0x00000000#32) n0 n7 0x00000000#32) n1 n0 0x00000000#32) n1 n1 0x3F800000#32) n1 n2 0x00000000#32) n1 n3 0x00000000#32) n1 n4 0x00000000#32) n1 n5 0x00000000#32) n1 n6 0x00000000#32) n1 n7 0x00000000#32) n2 n0 0x00000000#32) n2 n1 0x00000000#32) n2 n2 0x3F800000#32) n2 n3 0x00000000#32) n2 n4 0x00000000#32) n2 n5 0x00000000#32) n2 n6 0x00000000#32) n2 n7 0x00000000#32) n3 n0 0x00000000#32) n3 n1 0x00000000#32) n3 n2 0x00000000#32) n3 n3 0x3F800000#32) n3 n4 0x00000000#32) n3 n5 0x00000000#32) n3 n6 0x00000000#32) n3 n7 0x00000000#32) n4 n0 0x00000000#32) n4 n1 0x00000000#32) n4 n2 0x00000000#32) n4 n3 0x00000000#32) n4 n4 0x3F800000#32) n4 n5 0x00000000#32) n4 n6 0x00000000#32) n4 n7 0x00000000#32) n5 n0 0x00000000#32) n5 n1 0x00000000#32) n5 n2 0x00000000#32) n5 n3 0x00000000#32) n5 n4 0x00000000#32) n5 n5 0x3F800000#32) n5 n6 0x00000000#32) n5 n7 0x00000000#32) n6 n0 0x00000000#32) n6 n1 0x00000000#32) n6 n2 0x00000000#32) n6 n3 0x00000000#32) n6 n4 0x00000000#32) n6 n5 0x00000000#32) n6 n6 0x3F800000#32) n6 n7 0x00000000#32) n7 n0 0x00000000#32) n7 n1 0x00000000#32) n7 n2 0x00000000#32) n7 n3 0x00000000#32) n7 n4 0x00000000#32) n7 n5 0x00000000#32) n7 n6 0x00000000#32) n7 n7 0x3F800000#32

/-! Each generated payload is one of the blocks above, or a run of steps. The inner-product payloads take their two
    blocks in ascending order of head and multiply them in the pair's order (k, l), so five of them read
    `rowDot b a`. -/

theorem pay4_eq (x : FVec F S1000x128 .f32) : k0_pay4 x = scale x := rfl
theorem pay5_eq (x : FVec F S1000x128 .f32) : k0_pay5 x = scale x := rfl
theorem pay8_eq (x : FVec F S1000x128 .f32) : k0_pay8 x = scale x := rfl
theorem pay9_eq (x : FVec F S1000x128 .f32) : k0_pay9 x = scale x := rfl
theorem pay10_eq (x : FVec F S1000x128 .f32) : k0_pay10 x = scale x := rfl
theorem pay11_eq (x : FVec F S1000x128 .f32) : k0_pay11 x = scale x := rfl
theorem pay12_eq (x : FVec F S1000x128 .f32) : k0_pay12 x = scale x := rfl
theorem pay7_eq (x : FVec F S1000x128 .f32) : k0_pay7 x (k0_pay6 x) = scale x := rfl
theorem pay14_eq (a : FVec F S1000x128 .f32) : k0_pay14 a = rowDot a a := rfl
theorem pay17_eq (a b : FVec F S1000x128 .f32) : k0_pay17 a b = rowDot a b := rfl
theorem pay20_eq (a b : FVec F S1000x128 .f32) : k0_pay20 a b = rowDot a b := rfl
theorem pay23_eq (a b : FVec F S1000x128 .f32) : k0_pay23 a b = rowDot a b := rfl
theorem pay26_eq (a b : FVec F S1000x128 .f32) : k0_pay26 a b = rowDot a b := rfl
theorem pay29_eq (a b : FVec F S1000x128 .f32) : k0_pay29 a b = rowDot b a := rfl
theorem pay32_eq (a b : FVec F S1000x128 .f32) : k0_pay32 a b = rowDot a b := rfl
theorem pay35_eq (a b : FVec F S1000x128 .f32) : k0_pay35 a b = rowDot b a := rfl
theorem pay38_eq (a b : FVec F S1000x128 .f32) : k0_pay38 a b = rowDot b a := rfl
theorem pay41_eq (a : FVec F S1000x128 .f32) : k0_pay41 a = rowDot a a := rfl
theorem pay44_eq (a b : FVec F S1000x128 .f32) : k0_pay44 a b = rowDot b a := rfl
theorem pay47_eq (a b : FVec F S1000x128 .f32) : k0_pay47 a b = rowDot a b := rfl
theorem pay50_eq (a b : FVec F S1000x128 .f32) : k0_pay50 a b = rowDot b a := rfl
theorem pay15_eq : k0_pay15 (F := F) = col 0x3F800000#32 := rfl
theorem pay18_eq : k0_pay18 (F := F) = col 0x00000000#32 := rfl
theorem pay21_eq : k0_pay21 (F := F) = col 0x00000000#32 := rfl
theorem pay24_eq : k0_pay24 (F := F) = col 0x00000000#32 := rfl
theorem pay27_eq : k0_pay27 (F := F) = col 0x00000000#32 := rfl
theorem pay30_eq : k0_pay30 (F := F) = col 0x00000000#32 := rfl
theorem pay33_eq : k0_pay33 (F := F) = col 0x00000000#32 := rfl
theorem pay36_eq : k0_pay36 (F := F) = col 0x00000000#32 := rfl
theorem pay39_eq : k0_pay39 (F := F) = col 0x00000000#32 := rfl
theorem pay42_eq : k0_pay42 (F := F) = col 0x3F800000#32 := rfl
theorem pay45_eq : k0_pay45 (F := F) = col 0x00000000#32 := rfl
theorem pay48_eq : k0_pay48 (F := F) = col 0x00000000#32 := rfl
theorem pay51_eq : k0_pay51 (F := F) = col 0x00000000#32 := rfl
theorem pay13_eq : k0_pay13 (F := F) = broadcast S1x1 (Scalar.ofBits .f32 0x00000000#32) := rfl
theorem pay1_eq (v : FVec F S1x1 .f32) : k0_pay1 v = shapeCast S1x1 v shapeCasts_S1x1_S1x1 := rfl

theorem pay16_eq (n0 n1 n2 n3 n4 : FVec F S1000x128 .f32) (t : FVec F S1x1 .f32) (a b : FVec F S1000x128 .f32)
    (w : BitVec 32) :
    k0_pay16 n0 n1 n2 n3 n4 t (rowDot a b) (col w)
      = step (step (step (step (step t a b w) n0 n1 0x00000000#32) n0 n2 0x00000000#32) n0 n3 0x00000000#32) n0 n4 0x00000000#32 := rfl

theorem pay19_eq (n0 n1 n6 n7 : FVec F S1000x128 .f32) (t : FVec F S1x1 .f32) (a b : FVec F S1000x128 .f32)
    (w : BitVec 32) :
    k0_pay19 n0 n1 n6 n7 t (rowDot a b) (col w)
      = step (step (step (step (step t a b w) n0 n6 0x00000000#32) n0 n7 0x00000000#32) n1 n0 0x00000000#32) n1 n1 0x3F800000#32 := rfl

theorem pay22_eq (n1 n3 n4 n5 n6 : FVec F S1000x128 .f32) (t : FVec F S1x1 .f32) (a b : FVec F S1000x128 .f32)
    (w : BitVec 32) :
    k0_pay22 n1 n3 n4 n5 n6 t (rowDot a b) (col w)
      = step (step (step (step (step t a b w) n1 n3 0x00000000#32) n1 n4 0x00000000#32) n1 n5 0x00000000#32) n1 n6 0x00000000#32 := rfl

theorem pay25_eq (n0 n1 n2 n3 : FVec F S1000x128 .f32) (t : FVec F S1x1 .f32) (a b : FVec F S1000x128 .f32)
    (w : BitVec 32) :
    k0_pay25 n0 n1 n2 n3 t (rowDot a b) (col w)
      = step (step (step (step (step t a b w) n2 n0 0x00000000#32) n2 n1 0x00000000#32) n2 n2 0x3F800000#32) n2 n3 0x00000000#32 := rfl

theorem pay28_eq (n0 n2 n3 n5 n6 n7 : FVec F S1000x128 .f32) (t : FVec F S1x1 .f32) (a b : FVec F S1000x128 .f32)
    (w : BitVec 32) :
    k0_pay28 n0 n2 n3 n5 n6 n7 t (rowDot a b) (col w)
      = step (step (step (step (step t a b w) n2 n5 0x00000000#32) n2 n6 0x00000000#32) n2 n7 0x00000000#32) n3 n0 0x00000000#32 := rfl

theorem pay31_eq (n2 n3 n4 n5 : FVec F S1000x128 .f32) (t : FVec F S1x1 .f32) (a b : FVec F S1000x128 .f32)
    (w : BitVec 32) :
    k0_pay31 n2 n3 n4 n5 t (rowDot a b) (col w)
      = step (step (step (step (step t a b w) n3 n2 0x00000000#32) n3 n3 0x3F800000#32) n3 n4 0x00000000#32) n3 n5 0x00000000#32 := rfl

theorem pay34_eq (n0 n1 n2 n3 n4 n7 : FVec F S1000x128 .f32) (t : FVec F S1x1 .f32) (a b : FVec F S1000x128 .f32)
    (w : BitVec 32) :
    k0_pay34 n0 n1 n2 n3 n4 n7 t (rowDot a b) (col w)
      = step (step (step (step (step t a b w) n3 n7 0x00000000#32) n4 n0 0x00000000#32) n4 n1 0x00000000#32) n4 n2 0x00000000#32 := rfl

theorem pay37_eq (n4 n5 n6 n7 : FVec F S1000x128 .f32) (t : FVec F S1x1 .f32) (a b : FVec F S1000x128 .f32)
    (w : BitVec 32) :
    k0_pay37 n4 n5 n6 n7 t (rowDot a b) (col w)
      = step (step (step (step (step t a b w) n4 n4 0x3F800000#32) n4 n5 0x00000000#32) n4 n6 0x00000000#32) n4 n7 0x00000000#32 := rfl

theorem pay40_eq (n1 n2 n3 n4 n5 : FVec F S1000x128 .f32) (t : FVec F S1x1 .f32) (a b : FVec F S1000x128 .f32)
    (w : BitVec 32) :
    k0_pay40 n1 n2 n3 n4 n5 t (rowDot a b) (col w)
      = step (step (step (step (step t a b w) n5 n1 0x00000000#32) n5 n2 0x00000000#32) n5 n3 0x00000000#32) n5 n4 0x00000000#32 := rfl

theorem pay43_eq (n0 n1 n5 n6 n7 : FVec F S1000x128 .f32) (t : FVec F S1x1 .f32) (a b : FVec F S1000x128 .f32)
    (w : BitVec 32) :
    k0_pay43 n0 n1 n5 n6 n7 t (rowDot a b) (col w)
      = step (step (step (step (step t a b w) n5 n6 0x00000000#32) n5 n7 0x00000000#32) n6 n0 0x00000000#32) n6 n1 0x00000000#32 := rfl

theorem pay46_eq (n3 n4 n5 n6 : FVec F S1000x128 .f32) (t : FVec F S1x1 .f32) (a b : FVec F S1000x128 .f32)
    (w : BitVec 32) :
    k0_pay46 n3 n4 n5 n6 t (rowDot a b) (col w)
      = step (step (step (step (step t a b w) n6 n3 0x00000000#32) n6 n4 0x00000000#32) n6 n5 0x00000000#32) n6 n6 0x3F800000#32 := rfl

theorem pay49_eq (n0 n1 n2 n3 n7 : FVec F S1000x128 .f32) (t : FVec F S1x1 .f32) (a b : FVec F S1000x128 .f32)
    (w : BitVec 32) :
    k0_pay49 n0 n1 n2 n3 n7 t (rowDot a b) (col w)
      = step (step (step (step (step t a b w) n7 n0 0x00000000#32) n7 n1 0x00000000#32) n7 n2 0x00000000#32) n7 n3 0x00000000#32 := rfl

theorem pay52_eq (n5 n6 n7 : FVec F S1000x128 .f32) (t : FVec F S1x1 .f32) (a b : FVec F S1000x128 .f32)
    (w : BitVec 32) (acc : FVec F S1x1 .f32) :
    k0_pay52 n5 n6 n7 t (rowDot a b) (col w) acc
      = addf acc (step (step (step (step t a b w) n7 n5 0x00000000#32) n7 n6 0x00000000#32) n7 n7 0x3F800000#32) := rfl

/-- One grid point's arithmetic: the 64 pair sums of the eight scaled blocks, added from a zero, added to the
    running total. -/
theorem tileAcc_eq (x0 x1 x2 x3 x4 x5 x6 x7 : Vec F S1000x128 .f32) (acc : Vec F S1x1 .f32) :
    tileAcc x0 x1 x2 x3 x4 x5 x6 x7 acc
      = shapeCast S1x1 (addf acc (total (broadcast S1x1 (Scalar.ofBits .f32 0x00000000#32))
          (scale x0) (scale x1) (scale x2) (scale x3) (scale x4) (scale x5) (scale x6) (scale x7)))
          shapeCasts_S1x1_S1x1 := by
  unfold tileAcc
  simp only [pay4_eq, pay5_eq, pay7_eq, pay8_eq, pay9_eq, pay10_eq, pay11_eq, pay12_eq, pay13_eq, pay14_eq, pay17_eq, pay20_eq, pay23_eq, pay26_eq, pay29_eq, pay32_eq, pay35_eq, pay38_eq, pay41_eq, pay44_eq, pay47_eq, pay50_eq, pay15_eq, pay18_eq, pay21_eq, pay24_eq, pay27_eq, pay30_eq, pay33_eq, pay36_eq, pay39_eq, pay42_eq, pay45_eq, pay48_eq, pay51_eq, pay16_eq, pay19_eq, pay22_eq, pay25_eq, pay28_eq, pay31_eq, pay34_eq, pay37_eq, pay40_eq, pay43_eq, pay46_eq, pay49_eq, pay52_eq, pay1_eq]
  rfl

end Blocks

section Reads

/-- A row inner-product column read at row r. -/
theorem rowDot_apply (a b : FVec Ideal S1000x128 .f32) (r : Fin 1000) (u : Fin 1) :
    rowDot a b (ix2 r u) = ∑ d : Fin 128, a (ix2 r d) * b (ix2 r d) := by
  unfold rowDot
  refine (shapeCast_apply _ shapeCasts_S1000_S1000x1 (ix2 r u) (ix1 r) ?_).trans ?_
  · have hu : u.val = 0 := by omega
    rw [Shape.rowMajor_val_two, Shape.rowMajor_val_one]
    show r.val = r.val * 1 + u.val
    omega
  · refine (Ideal.multiReduction_add_single (mulf a b) 0x00000000#32 reduces_S1000x128_S1000 (.inl rfl) rfl (ix1 r)).trans ?_
    refine Finset.sum_congr rfl fun d _ => ?_
    have e : reduces_S1000x128_S1000.lift (ix1 r) d = ix2 r d := by
      funext c; match c with | ⟨0, _⟩ => rfl | ⟨1, _⟩ => rfl
    rw [e]; rfl

/-- The sum over the rows of the squared difference of two columns, read at its one entry. -/
theorem sqSum_apply (c t : FVec Ideal S1000x1 .f32) (u v : Fin 1) :
    sqSum c t (ix2 u v)
      = ∑ r : Fin 1000, (c (ix2 r (0 : Fin 1)) - t (ix2 r (0 : Fin 1))) * (c (ix2 r (0 : Fin 1)) - t (ix2 r (0 : Fin 1))) := by
  unfold sqSum
  refine (shapeCast_apply _ shapeCasts_S1_S1x1 (ix2 u v) (ix1 (0 : Fin 1)) ?_).trans ?_
  · have hu : u.val = 0 := by omega
    have hv : v.val = 0 := by omega
    rw [Shape.rowMajor_val_two, Shape.rowMajor_val_one]
    show 0 = u.val * 1 + v.val
    omega
  · refine (Ideal.multiReduction_add_single (mulf (subf c t) (subf c t)) 0x00000000#32 reduces_S1000x1_S1 (.inl rfl) rfl
      (ix1 (0 : Fin 1))).trans ?_
    refine Finset.sum_congr rfl fun r _ => ?_
    have e : reduces_S1000x1_S1.lift (ix1 (0 : Fin 1)) r = ix2 r (0 : Fin 1) := by
      funext a; match a with | ⟨0, _⟩ => rfl | ⟨1, _⟩ => rfl
    rw [e]; rfl

/-- A scaled block read at (r, d): the entry divided by its row's clamped length. -/
theorem scale_apply (x : FVec Ideal S1000x128 .f32) (r : Fin 1000) (d : Fin 128) :
    scale x (ix2 r d) = Cert.Loss.unit (fun d => x (ix2 r d)) d := by
  unfold scale
  refine (divf_apply _ _ _).trans ?_
  rw [broadcastTo_apply _ broadcasts_S1000x1_S1000x128 (ix2 r d) (ix2 r (0 : Fin 1))
    (fun a => match a with | ⟨0, _⟩ => rfl | ⟨1, _⟩ => rfl)]
  rw [maximumf_apply]
  show Ideal.div (x (ix2 r d)) (max (Ideal.sqrt (rowDot x x (ix2 r (0 : Fin 1)))) Cert.Loss.eps) = _
  rw [rowDot_apply]
  rfl

/-- One pair's step read at its one entry, for two scaled blocks: the running total plus the sum over the rows of
    the squared deviation of the two rows' correlation from the number the word denotes. -/
theorem step_apply (t : FVec Ideal S1x1 .f32) (xk xl : FVec Ideal S1000x128 .f32) (w : BitVec 32) (u v : Fin 1) :
    step t (scale xk) (scale xl) w (ix2 u v)
      = t (ix2 u v) + ∑ r : Fin 1000,
          Cert.Loss.dev (fun d => xk (ix2 r d)) (fun d => xl (ix2 r d)) (Ideal.ofBits .f32 w) := by
  unfold step
  refine (addf_apply _ _ _).trans ?_
  rw [sqSum_apply]
  refine congrArg _ (Finset.sum_congr rfl fun r _ => ?_)
  rw [rowDot_apply]
  simp only [scale_apply]
  rfl

end Reads

section Total

/-- The 64 steps over eight scaled blocks, read at the one entry: the running total plus the sum over the rows of the
    sample's penalty. Both sides are the same 64 sums over the rows; the steps add them left to right, the penalty
    groups them by row first. -/
theorem total_apply (X : Fin 8 → FVec Ideal S1000x128 .f32) (t : FVec Ideal S1x1 .f32) (u v : Fin 1) :
    total t (scale (X 0)) (scale (X 1)) (scale (X 2)) (scale (X 3)) (scale (X 4)) (scale (X 5)) (scale (X 6)) (scale (X 7))
        (ix2 u v)
      = t (ix2 u v) + ∑ r : Fin 1000, Cert.Loss.sample (fun k d => X k (ix2 r d)) := by
  have hR : ∑ r : Fin 1000, Cert.Loss.sample (fun k d => X k (ix2 r d))
      = ∑ k : Fin 8, ∑ l : Fin 8, ∑ r : Fin 1000,
          Cert.Loss.dev (fun d => X k (ix2 r d)) (fun d => X l (ix2 r d)) (Cert.Loss.eye k l) := by
    unfold Cert.Loss.sample
    rw [Finset.sum_comm]
    exact Finset.sum_congr rfl fun k _ => Finset.sum_comm
  rw [hR]
  unfold total
  simp only [step_apply, Fin.sum_univ_eight, Cert.Loss.eye, Fin.reduceEq, ↓reduceIte, Ideal.ofBits_zero_f32,
    Ideal.ofBits_one_f32, add_assoc]

end Total

/-- One grid point's stored value, read at its one entry: the running total plus the sum, over the block's 1000
    rows, of the sample's penalty. -/
theorem tileAcc_apply (x0 x1 x2 x3 x4 x5 x6 x7 : Vec Ideal S1000x128 .f32) (acc : Vec Ideal S1x1 .f32) (j : S1x1.Idx) :
    tileAcc x0 x1 x2 x3 x4 x5 x6 x7 acc j
      = acc j + ∑ r : Fin 1000, Cert.Loss.sample (fun k d => (![x0, x1, x2, x3, x4, x5, x6, x7] : Fin 8 → S1000x128.Idx → EReal) k (ix2 r d)) := by
  obtain ⟨u, v, rfl⟩ : ∃ u v : Fin 1, j = ix2 u v := ⟨j 0, j 1, eq_ix2 j⟩
  rw [tileAcc_eq, shapeCast_self]
  refine (addf_apply _ _ _).trans ?_
  refine congrArg (acc (ix2 u v) + ·) ?_
  refine (total_apply ![x0, x1, x2, x3, x4, x5, x6, x7] _ u v).trans ?_
  rw [broadcast_apply]
  show Ideal.ofBits .f32 0x00000000#32 + _ = _
  rw [Ideal.ofBits_zero_f32, zero_add]

end Cert.KernelIdeal.Tile

end
-- ==== Proof.LibIdx3.lean ====
/-
  A sum over a rank-3 index set is the triple sum over its coordinates.
-/
import Idealize.ShloMosaic.Lib.ValueIdx
import Mathlib.Algebra.BigOperators.Group.Finset.Basic
import Mathlib.Data.Fintype.BigOperators

noncomputable section

open scoped BigOperators

namespace Cert.LibIdx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it, in any additive commutative monoid, is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibIdx3

end
-- ==== Proof.LibSumBlocks.lean ====
/-
  A sum over the naturals below a·b, taken block by block.
-/
import Mathlib.Algebra.BigOperators.Group.Finset.Basic

open scoped BigOperators

namespace Cert.LibSumBlocks

/-- A sum over the naturals below `a * b` is the sum, over the `a` consecutive blocks of length `b`, of each
    block's sum: `∑ t < a, ∑ r < b, f (b·t + r) = ∑ n < a·b, f n`, in any additive commutative monoid. -/
theorem sum_range_blocks {M : Type*} [AddCommMonoid M] (f : ℕ → M) (b : ℕ) : ∀ a : ℕ,
    ∑ t ∈ Finset.range a, ∑ r ∈ Finset.range b, f (b * t + r) = ∑ n ∈ Finset.range (a * b), f n
  | 0 => by simp
  | a + 1 => by
    rw [Finset.sum_range_succ, sum_range_blocks f b a, Nat.succ_mul, Finset.sum_range_add]
    congr 1
    exact Finset.sum_congr rfl fun r _ => by rw [Nat.mul_comm]

end Cert.LibSumBlocks
-- ==== Proof.Value.lean ====
/-
  The kernel's result as a function of its eight argument arrays.

  On each core the grid visits fifty points per half of the samples; a point's eight input blocks are the rows
  1000·t … 1000·t + 999 of the eight arrays. The running total after a point is the sum of the points' totals since
  the half's first point (by induction over the points: the first resets, the others add); the half's last point
  copies it to the output array's entry for that half; the host adds the two halves and divides by the number of
  samples. Summing the points' totals over both halves is summing the samples' penalties over all samples.
-/
import proofs.«170730_j78932908966303_1_alg».proof.Proof.Pieces
import proofs.«170730_j78932908966303_1_alg».proof.Proof.TileRead
import proofs.«170730_j78932908966303_1_alg».proof.Proof.Loss
import proofs.«170730_j78932908966303_1_alg».proof.Proof.LibIdx3
import proofs.«170730_j78932908966303_1_alg».proof.Proof.LibSumBlocks
import Idealize.ShloMosaic.PureOps.Ideal.Laws
import Idealize.ShloMosaic.Lib.ValueIdx
import Idealize.ShloMosaic.Lib.Pipeline.Value
import Idealize.ShloMosaic.Lib.StableHlo.Run

noncomputable section

open scoped BigOperators

open Idealize.ShloMosaic Idealize.ShloMosaic.ValueIdx Idealize.ShloMosaic.TcCoe Idealize.SL.Sem
open Idealize.ShloMosaic.Pipeline (Dat)

namespace Cert.KernelIdeal.Value

open Cert.KernelIdeal Cert.KernelIdeal.Gen Cert.KernelIdeal.Tile Cert.KernelIdeal.Pieces

variable (m : (ℓ : Loc nD τ sig) → Buf (Elt Ideal) ℓ) (ρ : Dev nD → PrngReg)

/-! ## One point's total -/

/-- The eight input blocks of point `t` on core `c`, each as a [1000,128] array of extended reals. -/
abbrev b0 (c : Dev nD) (t : Fin cfg0.N) : Vec Ideal S1000x128 .f32 := iblk m c 0 t
abbrev b1 (c : Dev nD) (t : Fin cfg0.N) : Vec Ideal S1000x128 .f32 := iblk m c 1 t
abbrev b2 (c : Dev nD) (t : Fin cfg0.N) : Vec Ideal S1000x128 .f32 := iblk m c 2 t
abbrev b3 (c : Dev nD) (t : Fin cfg0.N) : Vec Ideal S1000x128 .f32 := iblk m c 3 t
abbrev b4 (c : Dev nD) (t : Fin cfg0.N) : Vec Ideal S1000x128 .f32 := iblk m c 4 t
abbrev b5 (c : Dev nD) (t : Fin cfg0.N) : Vec Ideal S1000x128 .f32 := iblk m c 5 t
abbrev b6 (c : Dev nD) (t : Fin cfg0.N) : Vec Ideal S1000x128 .f32 := iblk m c 6 t
abbrev b7 (c : Dev nD) (t : Fin cfg0.N) : Vec Ideal S1000x128 .f32 := iblk m c 7 t

/-- The total a point contributes: its 1000 samples' penalties. -/
def pt (c : Dev nD) (t : Fin cfg0.N) : EReal :=
  ∑ r : Fin 1000, Cert.Loss.sample (fun k d =>
    (![b0 m c t, b1 m c t, b2 m c t, b3 m c t, b4 m c t, b5 m c t, b6 m c t, b7 m c t] : Fin 8 → S1000x128.Idx → EReal) k (ix2 r d))

/-- The same over the naturals: nothing beyond the grid. -/
def ptN (c : Dev nD) (n : ℕ) : EReal := if h : n < cfg0.N then pt m c ⟨n, h⟩ else 0

theorem ptN_of_lt (c : Dev nD) (n : ℕ) (h : n < cfg0.N) : ptN m c n = pt m c ⟨n, h⟩ := dif_pos h

/-- The zero block the reset stores reads zero. -/
theorem reset_apply (j : S1x1.Idx) : k0_pay3 (F := Ideal) j = 0 := by
  unfold k0_pay3
  rw [shapeCast_self]
  exact Ideal.ofBits_zero_f32

/-! ## The running total after each point -/

/-- The running total the point at position `n` finds is the one the position before left, whichever way the
    position is written. -/
theorem prev_congr (c : Dev nD) (n n' : ℕ) (e : n = n') (h : n < cfg0.N) (h' : n' < cfg0.N) :
    (outsAt0 (F := Ideal) m c n h).2 = (outsAt0 (F := Ideal) m c n' h').2 := by subst e; rfl

/-- After the point at offset `i` of a half (`c'` = 0 or 1: positions 50·c' … 50·c' + 49) the running total is the
    sum of the totals of that half's points up to it. -/
theorem scratch_eq (c : Dev nD) (c' : ℕ) : ∀ (i : ℕ) (hi : i < 50) (h : 50 * c' + i < cfg0.N) (j : S1x1.Idx),
    (outsAt0 (F := Ideal) m c (50 * c' + i) h).2 j = ∑ i' ∈ Finset.range (i + 1), ptN m c (50 * c' + i')
  | 0, _, h, j => by
    have h0 : (⟨50 * c' + 0, h⟩ : Fin cfg0.N).val % 50 = 0 := by dsimp only; omega
    have h1 : ¬(⟨50 * c' + 0, h⟩ : Fin cfg0.N).val % 50 = 49 := by dsimp only; omega
    rw [outsAt0_A m c ⟨50 * c' + 0, h⟩ h0 h1]
    dsimp only
    rw [sout_A, tileAcc_apply, reset_apply, zero_add, Finset.sum_range_one, ptN_of_lt m c _ h]
    rfl
  | i + 1, hi, h, j => by
    have h0 : ¬(⟨50 * c' + (i + 1), h⟩ : Fin cfg0.N).val % 50 = 0 := by dsimp only; omega
    have hp : 50 * c' + i < cfg0.N := by omega
    have ih := scratch_eq c c' i (by omega) hp
    rw [Finset.sum_range_succ, ← ih j, ptN_of_lt m c _ h]
    by_cases h1 : (⟨50 * c' + (i + 1), h⟩ : Fin cfg0.N).val % 50 = 49
    · rw [outsAt0_C m c ⟨50 * c' + (i + 1), h⟩ h0 h1]
      dsimp only
      rw [sout_C, tileAcc_apply, prev_congr m c (50 * c' + (i + 1) - 1) (50 * c' + i) (by omega) _ hp]
      rfl
    · rw [outsAt0_B m c ⟨50 * c' + (i + 1), h⟩ h0 h1]
      dsimp only
      rw [sout_B, tileAcc_apply, prev_congr m c (50 * c' + (i + 1) - 1) (50 * c' + i) (by omega) _ hp]
      rfl

/-! ## The output array after the run -/

/-- The output block the last point of half `c'` stores: its one entry is the half's total. -/
theorem out_eq (c : Dev nD) (c' : ℕ) (h : 50 * c' + 49 < cfg0.N) (y : S1x1x1.Idx) :
    (outsAt0 (F := Ideal) m c (50 * c' + 49) h).1 y = ∑ i' ∈ Finset.range 50, ptN m c (50 * c' + i') := by
  have h0 : ¬(⟨50 * c' + 49, h⟩ : Fin cfg0.N).val % 50 = 0 := by dsimp only; omega
  have h1 : (⟨50 * c' + 49, h⟩ : Fin cfg0.N).val % 50 = 49 := by dsimp only; omega
  have hp : 50 * c' + 48 < cfg0.N := by omega
  rw [outsAt0_C m c ⟨50 * c' + 49, h⟩ h0 h1]
  dsimp only
  rw [out_C]
  unfold k0_pay2
  have key : ∀ j : S1x1.Idx,
      tileAcc (b0 m c ⟨50 * c' + 49, h⟩) (b1 m c ⟨50 * c' + 49, h⟩) (b2 m c ⟨50 * c' + 49, h⟩) (b3 m c ⟨50 * c' + 49, h⟩)
        (b4 m c ⟨50 * c' + 49, h⟩) (b5 m c ⟨50 * c' + 49, h⟩) (b6 m c ⟨50 * c' + 49, h⟩) (b7 m c ⟨50 * c' + 49, h⟩)
        (outsAt0 (F := Ideal) m c (50 * c' + 49 - 1) (by omega)).2 j
      = ∑ i' ∈ Finset.range 50, ptN m c (50 * c' + i') := by
    intro j
    rw [tileAcc_apply, prev_congr m c (50 * c' + 49 - 1) (50 * c' + 48) (by omega) _ hp, scratch_eq m c c' 48 (by omega) hp]
    show _ + pt m c ⟨50 * c' + 49, h⟩ = ∑ i' ∈ Finset.range (49 + 1), ptN m c (50 * c' + i')
    rw [Finset.sum_range_succ (fun i' => ptN m c (50 * c' + i')) 49, ptN_of_lt m c _ h]
  rw [shapeCast_addUnit_apply]
  exact key _

/-- The output array after the run: its entry for half `c'` holds that half's total. -/
def halves (c : Dev nD) : S2x1x1.Idx → EReal := fun y => ∑ i' ∈ Finset.range 50, ptN m c (50 * (y 0).val + i')

/-- The output's block index at a point is the point's half. -/
theorem idx8 : ∀ t : Fin cfg0.N, win0_8.index t 0 = t.val / 50 :=
  (by decide +kernel : ∀ t : Fin grid0.N, win0_8.index t 0 = t.val / 50)

/-- What a half's last point writes back is that half's entry of `halves`. -/
theorem flushed_eq (c : Dev nD) (t : Fin cfg0.N) (hf : (cfg0.win 8).flush t = true) :
    (dats m 0 c).flushed 8 t = ((cfg0.win 8).blk t).view.read (Elt Ideal) (halves m c) := by
  have hN : cfg0.N = 100 := N_0
  have h49 : t.val % 50 = 49 := (flush0_8 t).mp hf
  obtain ⟨n, hn⟩ := t
  obtain ⟨c', rfl⟩ : ∃ c', n = 50 * c' + 49 := ⟨n / 50, by dsimp only at h49; omega⟩
  funext y
  show (cfg0.win 8).cut (grid0.coords ⟨50 * c' + 49, hn⟩) ((dats m 0 c).after 8 ⟨50 * c' + 49, hn⟩) y = _
  rw [after0_8]
  refine (out_eq m c c' hn _).trans ?_
  rw [View.read_apply]
  have hy : (y 0).val = 0 := by have : (y 0).val < 1 := (y 0).isLt; omega
  have hi : win0_8.index ⟨50 * c' + 49, hn⟩ 0 = c' := by rw [idx8]; dsimp only; omega
  show _ = ∑ i' ∈ Finset.range 50, ptN m c (50 * (win0_8.index ⟨50 * c' + 49, hn⟩ 0 * 1 + 1 * (y 0).val) + i')
  rw [hi, hy]
  exact Finset.sum_congr rfl fun i' _ => congrArg (ptN m c) (by omega)

/-- Every entry of the output array is written back by its half's last point. -/
theorem cover8 (i : ((cfg0.win 8).arr.view.loc ((0 : Dev nD).tc : Thread nD τ)).2.ty.Idx) :
    ∃ t : Fin cfg0.N, (cfg0.win 8).flush t = true ∧ i ∈ ((cfg0.win 8).blk t).view.set := by
  have hN : cfg0.N = 100 := N_0
  have h0 : (i 0).val < 2 := (i 0).isLt
  have h1 : (i 1).val < 1 := (i 1).isLt
  have h2 : (i 2).val < 1 := (i 2).isLt
  have ht : 50 * (i 0).val + 49 < cfg0.N := by omega
  refine ⟨⟨50 * (i 0).val + 49, ht⟩, (flush0_8 _).mpr (by dsimp only; omega), ?_⟩
  show i ∈ ((View.whole main_v0).slice (win0_8.rect ⟨50 * (i 0).val + 49, ht⟩)).set
  rw [View.set_slice_whole, Rect.mem_set_unit]
  intro a
  have hi : win0_8.index ⟨50 * (i 0).val + 49, ht⟩ 0 = (i 0).val := by rw [idx8]; dsimp only; omega
  have hi1 : win0_8.index ⟨50 * (i 0).val + 49, ht⟩ 1 = 0 := rfl
  have hi2 : win0_8.index ⟨50 * (i 0).val + 49, ht⟩ 2 = 0 := rfl
  match a with
  | ⟨0, _⟩ => show win0_8.index ⟨50 * (i 0).val + 49, ht⟩ 0 * 1 ≤ (i 0 : Nat) ∧ (i 0 : Nat) < win0_8.index ⟨50 * (i 0).val + 49, ht⟩ 0 * 1 + 1
              rw [hi]; omega
  | ⟨1, _⟩ => show win0_8.index ⟨50 * (i 0).val + 49, ht⟩ 1 * 1 ≤ (i 1 : Nat) ∧ (i 1 : Nat) < win0_8.index ⟨50 * (i 0).val + 49, ht⟩ 1 * 1 + 1
              rw [hi1]; omega
  | ⟨2, _⟩ => show win0_8.index ⟨50 * (i 0).val + 49, ht⟩ 2 * 1 ≤ (i 2 : Nat) ∧ (i 2 : Nat) < win0_8.index ⟨50 * (i 0).val + 49, ht⟩ 2 * 1 + 1
              rw [hi2]; omega

/-- So the output array ends holding the two halves' totals. -/
theorem final8 (c : Dev nD) : (dats m 0 c).arrAt 8 cfg0.N = halves m c :=
  (dats m 0 c).arrAt_eq_of_cover 8 (halves m c) (flushed_eq m c) (by
    obtain rfl : c = 0 := Subsingleton.elim _ _
    exact cover8)

/-! ## The host's lines after the region -/

/-- After the region the host adds the output array's two entries to a zero and divides by the number of samples. -/
theorem tail_eq (c : Dev nD) :
    Pipeline.afterTail₀ cfgs (dats m) 0 (V0 m) [hostOps1] c main_v2
      = Host.divf (Host.reduceAdd (halves m c) (constant (F := Ideal) S_ .f32 0x00000000#32) reducesTo_S2x1x1_S_d0_1_2 h_S_)
          (constant (F := Ideal) S_ .f32 0x47C35000#32) := by
  unfold Pipeline.afterTail₀
  show StableHlo.after hostOps1 _ (Proc.devRef .tc main_v2) = _
  after_results
  have e := (Pipeline.withArrays_arr spec0 launch0.win.arr_inj c (V0 m c) (fun w => (dats m 0 c).arrAt w cfg0.N) 8).trans
    (final8 m c)
  rw [e]

/-! ## A point's blocks are rows of the argument arrays -/

/-- Every input window's block index at point `t` is `(t, 0)`: block `t` of 1000 rows, all 128 positions. -/
theorem idxIn0 : ∀ t : Fin cfg0.N, win0_0.index t 0 = t.val ∧ win0_0.index t 1 = 0 :=
  (by decide +kernel : ∀ t : Fin grid0.N, win0_0.index t 0 = t.val ∧ win0_0.index t 1 = 0)
theorem idxIn1 : ∀ t : Fin cfg0.N, win0_1.index t 0 = t.val ∧ win0_1.index t 1 = 0 :=
  (by decide +kernel : ∀ t : Fin grid0.N, win0_1.index t 0 = t.val ∧ win0_1.index t 1 = 0)
theorem idxIn2 : ∀ t : Fin cfg0.N, win0_2.index t 0 = t.val ∧ win0_2.index t 1 = 0 :=
  (by decide +kernel : ∀ t : Fin grid0.N, win0_2.index t 0 = t.val ∧ win0_2.index t 1 = 0)
theorem idxIn3 : ∀ t : Fin cfg0.N, win0_3.index t 0 = t.val ∧ win0_3.index t 1 = 0 :=
  (by decide +kernel : ∀ t : Fin grid0.N, win0_3.index t 0 = t.val ∧ win0_3.index t 1 = 0)
theorem idxIn4 : ∀ t : Fin cfg0.N, win0_4.index t 0 = t.val ∧ win0_4.index t 1 = 0 :=
  (by decide +kernel : ∀ t : Fin grid0.N, win0_4.index t 0 = t.val ∧ win0_4.index t 1 = 0)
theorem idxIn5 : ∀ t : Fin cfg0.N, win0_5.index t 0 = t.val ∧ win0_5.index t 1 = 0 :=
  (by decide +kernel : ∀ t : Fin grid0.N, win0_5.index t 0 = t.val ∧ win0_5.index t 1 = 0)
theorem idxIn6 : ∀ t : Fin cfg0.N, win0_6.index t 0 = t.val ∧ win0_6.index t 1 = 0 :=
  (by decide +kernel : ∀ t : Fin grid0.N, win0_6.index t 0 = t.val ∧ win0_6.index t 1 = 0)
theorem idxIn7 : ∀ t : Fin cfg0.N, win0_7.index t 0 = t.val ∧ win0_7.index t 1 = 0 :=
  (by decide +kernel : ∀ t : Fin grid0.N, win0_7.index t 0 = t.val ∧ win0_7.index t 1 = 0)

/-- Row `r` of point `t`'s block of an argument array is the array's row `1000·t + r`. -/
theorem b0_apply (c : Dev nD) (t : Fin cfg0.N) (r : Fin 1000) (d : Fin 128) (hn : 1000 * t.val + r.val < 100000) :
    b0 m c t (ix2 r d) = m ((c : Thread nD τ).loc main_arg0) (ix2 ⟨1000 * t.val + r.val, hn⟩ d) := by
  unfold b0 iblk
  rw [View.read_apply]
  show V m c main_arg0 _ = m (c.tc.loc main_arg0) _
  unfold V
  congr 1
  funext a
  apply Fin.ext
  match a with
  | ⟨0, _⟩ => show win0_0.index t 0 * 1000 + 1 * r.val = 1000 * t.val + r.val; rw [(idxIn0 t).1]; omega
  | ⟨1, _⟩ => show win0_0.index t 1 * 128 + 1 * d.val = d.val; rw [(idxIn0 t).2]; omega
theorem b1_apply (c : Dev nD) (t : Fin cfg0.N) (r : Fin 1000) (d : Fin 128) (hn : 1000 * t.val + r.val < 100000) :
    b1 m c t (ix2 r d) = m ((c : Thread nD τ).loc main_arg1) (ix2 ⟨1000 * t.val + r.val, hn⟩ d) := by
  unfold b1 iblk
  rw [View.read_apply]
  show V m c main_arg1 _ = m (c.tc.loc main_arg1) _
  unfold V
  congr 1
  funext a
  apply Fin.ext
  match a with
  | ⟨0, _⟩ => show win0_1.index t 0 * 1000 + 1 * r.val = 1000 * t.val + r.val; rw [(idxIn1 t).1]; omega
  | ⟨1, _⟩ => show win0_1.index t 1 * 128 + 1 * d.val = d.val; rw [(idxIn1 t).2]; omega
theorem b2_apply (c : Dev nD) (t : Fin cfg0.N) (r : Fin 1000) (d : Fin 128) (hn : 1000 * t.val + r.val < 100000) :
    b2 m c t (ix2 r d) = m ((c : Thread nD τ).loc main_arg2) (ix2 ⟨1000 * t.val + r.val, hn⟩ d) := by
  unfold b2 iblk
  rw [View.read_apply]
  show V m c main_arg2 _ = m (c.tc.loc main_arg2) _
  unfold V
  congr 1
  funext a
  apply Fin.ext
  match a with
  | ⟨0, _⟩ => show win0_2.index t 0 * 1000 + 1 * r.val = 1000 * t.val + r.val; rw [(idxIn2 t).1]; omega
  | ⟨1, _⟩ => show win0_2.index t 1 * 128 + 1 * d.val = d.val; rw [(idxIn2 t).2]; omega
theorem b3_apply (c : Dev nD) (t : Fin cfg0.N) (r : Fin 1000) (d : Fin 128) (hn : 1000 * t.val + r.val < 100000) :
    b3 m c t (ix2 r d) = m ((c : Thread nD τ).loc main_arg3) (ix2 ⟨1000 * t.val + r.val, hn⟩ d) := by
  unfold b3 iblk
  rw [View.read_apply]
  show V m c main_arg3 _ = m (c.tc.loc main_arg3) _
  unfold V
  congr 1
  funext a
  apply Fin.ext
  match a with
  | ⟨0, _⟩ => show win0_3.index t 0 * 1000 + 1 * r.val = 1000 * t.val + r.val; rw [(idxIn3 t).1]; omega
  | ⟨1, _⟩ => show win0_3.index t 1 * 128 + 1 * d.val = d.val; rw [(idxIn3 t).2]; omega
theorem b4_apply (c : Dev nD) (t : Fin cfg0.N) (r : Fin 1000) (d : Fin 128) (hn : 1000 * t.val + r.val < 100000) :
    b4 m c t (ix2 r d) = m ((c : Thread nD τ).loc main_arg4) (ix2 ⟨1000 * t.val + r.val, hn⟩ d) := by
  unfold b4 iblk
  rw [View.read_apply]
  show V m c main_arg4 _ = m (c.tc.loc main_arg4) _
  unfold V
  congr 1
  funext a
  apply Fin.ext
  match a with
  | ⟨0, _⟩ => show win0_4.index t 0 * 1000 + 1 * r.val = 1000 * t.val + r.val; rw [(idxIn4 t).1]; omega
  | ⟨1, _⟩ => show win0_4.index t 1 * 128 + 1 * d.val = d.val; rw [(idxIn4 t).2]; omega
theorem b5_apply (c : Dev nD) (t : Fin cfg0.N) (r : Fin 1000) (d : Fin 128) (hn : 1000 * t.val + r.val < 100000) :
    b5 m c t (ix2 r d) = m ((c : Thread nD τ).loc main_arg5) (ix2 ⟨1000 * t.val + r.val, hn⟩ d) := by
  unfold b5 iblk
  rw [View.read_apply]
  show V m c main_arg5 _ = m (c.tc.loc main_arg5) _
  unfold V
  congr 1
  funext a
  apply Fin.ext
  match a with
  | ⟨0, _⟩ => show win0_5.index t 0 * 1000 + 1 * r.val = 1000 * t.val + r.val; rw [(idxIn5 t).1]; omega
  | ⟨1, _⟩ => show win0_5.index t 1 * 128 + 1 * d.val = d.val; rw [(idxIn5 t).2]; omega
theorem b6_apply (c : Dev nD) (t : Fin cfg0.N) (r : Fin 1000) (d : Fin 128) (hn : 1000 * t.val + r.val < 100000) :
    b6 m c t (ix2 r d) = m ((c : Thread nD τ).loc main_arg6) (ix2 ⟨1000 * t.val + r.val, hn⟩ d) := by
  unfold b6 iblk
  rw [View.read_apply]
  show V m c main_arg6 _ = m (c.tc.loc main_arg6) _
  unfold V
  congr 1
  funext a
  apply Fin.ext
  match a with
  | ⟨0, _⟩ => show win0_6.index t 0 * 1000 + 1 * r.val = 1000 * t.val + r.val; rw [(idxIn6 t).1]; omega
  | ⟨1, _⟩ => show win0_6.index t 1 * 128 + 1 * d.val = d.val; rw [(idxIn6 t).2]; omega
theorem b7_apply (c : Dev nD) (t : Fin cfg0.N) (r : Fin 1000) (d : Fin 128) (hn : 1000 * t.val + r.val < 100000) :
    b7 m c t (ix2 r d) = m ((c : Thread nD τ).loc main_arg7) (ix2 ⟨1000 * t.val + r.val, hn⟩ d) := by
  unfold b7 iblk
  rw [View.read_apply]
  show V m c main_arg7 _ = m (c.tc.loc main_arg7) _
  unfold V
  congr 1
  funext a
  apply Fin.ext
  match a with
  | ⟨0, _⟩ => show win0_7.index t 0 * 1000 + 1 * r.val = 1000 * t.val + r.val; rw [(idxIn7 t).1]; omega
  | ⟨1, _⟩ => show win0_7.index t 1 * 128 + 1 * d.val = d.val; rw [(idxIn7 t).2]; omega

/-! ## The grid's totals, regrouped into one sum over the samples -/

/-- The eight argument arrays on core `c`. -/
def args (c : Dev nD) : Fin 8 → (⟨2, ![100000, 128]⟩ : Shape).Idx → EReal :=
  ![m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6), m ((c : Thread nD τ).loc main_arg7)]

/-- Sample `n`'s penalty, over the naturals: nothing beyond the last sample. -/
def pen (c : Dev nD) (n : ℕ) : EReal :=
  if h : n < 100000 then Cert.Loss.sample (fun k => Cert.Loss.heads (args m c) k ⟨n, h⟩) else 0

/-- A point's total is the sum of its 1000 samples' penalties: samples 1000·t … 1000·t + 999. -/
theorem pt_eq (c : Dev nD) (t : Fin cfg0.N) : pt m c t = ∑ r ∈ Finset.range 1000, pen m c (1000 * t.val + r) := by
  have hN : cfg0.N = 100 := N_0
  have ht : t.val < 100 := hN ▸ t.isLt
  rw [Finset.sum_range]
  unfold pt
  refine Finset.sum_congr rfl fun r _ => ?_
  have hn : 1000 * t.val + r.val < 100000 := by have := r.isLt; omega
  unfold pen
  rw [dif_pos hn]
  refine congrArg Cert.Loss.sample (funext fun k => funext fun d => ?_)
  unfold Cert.Loss.heads args
  match k with
  | ⟨0, _⟩ => exact b0_apply m c t r d hn
  | ⟨1, _⟩ => exact b1_apply m c t r d hn
  | ⟨2, _⟩ => exact b2_apply m c t r d hn
  | ⟨3, _⟩ => exact b3_apply m c t r d hn
  | ⟨4, _⟩ => exact b4_apply m c t r d hn
  | ⟨5, _⟩ => exact b5_apply m c t r d hn
  | ⟨6, _⟩ => exact b6_apply m c t r d hn
  | ⟨7, _⟩ => exact b7_apply m c t r d hn

/-- The same over the naturals (beyond the grid both sides are zero). -/
theorem ptN_eq (c : Dev nD) (n : ℕ) : ptN m c n = ∑ r ∈ Finset.range 1000, pen m c (1000 * n + r) := by
  have hN : cfg0.N = 100 := N_0
  by_cases h : n < cfg0.N
  · rw [ptN_of_lt m c n h, pt_eq]
  · unfold ptN
    rw [dif_neg h]
    refine (Finset.sum_eq_zero fun r _ => ?_).symm
    unfold pen
    rw [dif_neg (by omega)]

/-- The output array's two entries together are the sum of all samples' penalties. -/
theorem halves_sum (c : Dev nD) :
    ∑ y : S2x1x1.Idx, halves m c y = ∑ n : Fin 100000, Cert.Loss.sample (fun k => Cert.Loss.heads (args m c) k n) := by
  rw [Cert.LibIdx3.sum_idx3]
  simp only [Fin.sum_univ_one]
  show ∑ a : Fin 2, ∑ i' ∈ Finset.range 50, ptN m c (50 * a.val + i') = _
  rw [← Finset.sum_range (fun a => ∑ i' ∈ Finset.range 50, ptN m c (50 * a + i')),
    Cert.LibSumBlocks.sum_range_blocks (ptN m c) 50 2]
  simp only [ptN_eq]
  rw [Cert.LibSumBlocks.sum_range_blocks (pen m c) 1000 (2 * 50)]
  show ∑ n ∈ Finset.range 100000, pen m c n = _
  rw [Finset.sum_range]
  refine Finset.sum_congr rfl fun n _ => ?_
  unfold pen
  rw [dif_pos n.isLt]

/-! ## The run -/

/-- The kernel's result on core `c`: the loss of the eight argument arrays. -/
def result (c : Dev nD) : Buf (Elt Ideal) ((c : Thread nD τ).loc main_v2) :=
  fun _ => Cert.Loss.loss (Cert.Loss.heads (args m c))

/-- What the host's last line leaves in the result buffer is the loss. -/
theorem tail_val (c : Dev nD) : Pipeline.afterTail₀ cfgs (dats m) 0 (V0 m) [hostOps1] c main_v2 = result m c := by
  rw [tail_eq]
  funext i
  show Ideal.div (Host.reduceAdd (halves m c) (constant (F := Ideal) S_ .f32 0x00000000#32) reducesTo_S2x1x1_S_d0_1_2 h_S_ i)
    Cert.Loss.count = Cert.Loss.loss (Cert.Loss.heads (args m c))
  unfold Cert.Loss.loss
  refine congrArg (Ideal.div · Cert.Loss.count) ?_
  simp only [Host.reduceAdd, Ideal.hostReduceAdd_def]
  rw [Ideal.hostReduceAdd_total reducesTo_S2x1x1_S_d0_1_2 (fun b => b.elim0) (halves m c) _ i, halves_sum]
  show Ideal.ofBits .f32 0x00000000#32 + _ = _
  rw [Ideal.ofBits_zero_f32, zero_add]

/-- Every weakly fair execution of the kernel's program terminates with the result buffer at the loss of the
    argument arrays and the argument arrays unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v2 (Pipeline.mem_restRefs_of main_v2 rfl (fun w => by fin_cases w <;> decide))).trans (tail_val m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Cert.KernelIdeal.Value

end
-- ==== Proof.RefRead.lean ====
/-
  The reference program's result as a function of its eight argument arrays.

  The eight arrays are stacked into one [sample, head, position] array; every row is scaled by its clamped length;
  the inner products of the scaled rows of one sample, head against head, are compared with the identity matrix;
  the squared differences are summed over all samples and pairs of heads and divided by the number of samples.
  Read index by index, every stage is the specification's: the stacked array's row is a head's row, the clamped
  length is `Loss.len`, the scaled entry `Loss.unit`, the inner product `Loss.corr`, the comparison of the two
  iotas the identity's entry; the sum over the rank-3 index set is the triple sum over samples and pairs.
-/
import proofs.«170730_j78932908966303_1_alg».proof.Proof.Gen.ReferenceIdeal.Read
import proofs.«170730_j78932908966303_1_alg».proof.Proof.Loss
import proofs.«170730_j78932908966303_1_alg».proof.Proof.LibIdx3
import Idealize.ShloMosaic.Lib.Pipeline.Value
import Idealize.ShloMosaic.Lib.ValueIdx
import Idealize.ShloMosaic.PureOps.Ideal
import Idealize.ShloMosaic.PureOps.Ideal.Laws
import Mathlib.Algebra.BigOperators.Group.Finset.Basic
import Mathlib.Data.Fintype.BigOperators

noncomputable section

open scoped BigOperators

namespace Cert.ReferenceIdeal.RefValue

open Cert.ReferenceIdeal Cert.ReferenceIdeal.Read Idealize.ShloMosaic Idealize.ShloMosaic.ValueIdx Cert.LibIdx3

/-- One argument array: a value for every (sample, position). -/
abbrev Arr : Type := (⟨S100000x128, .f32⟩ : BufTy).Contents (Elt Ideal)

/-- The eight argument arrays as the heads of the specification. -/
abbrev hd (x0 x1 x2 x3 x4 x5 x6 x7 : Arr) : Fin 8 → Fin 100000 → Fin 128 → EReal :=
  Cert.Loss.heads ![x0, x1, x2, x3, x4, x5, x6, x7]

/-! ## The stacked array at an index -/

/-- Eight pieces of extent one along the middle axis, joined: the element at (n, k, d) is piece k's at (n, 0, d). -/
theorem concat8_apply (y : Fin 8 → S100000x1x128.Idx → EReal)
    (h : Shape.Concatenates [S100000x1x128, S100000x1x128, S100000x1x128, S100000x1x128, S100000x1x128, S100000x1x128, S100000x1x128, S100000x1x128] S100000x8x128 1)
    (n : Fin 100000) (k : Fin 8) (d : Fin 128) :
    concatenate S100000x8x128 1 [⟨S100000x1x128, y 0⟩, ⟨S100000x1x128, y 1⟩, ⟨S100000x1x128, y 2⟩, ⟨S100000x1x128, y 3⟩,
      ⟨S100000x1x128, y 4⟩, ⟨S100000x1x128, y 5⟩, ⟨S100000x1x128, y 6⟩, ⟨S100000x1x128, y 7⟩] h (ix3 n k d)
      = y k (ix3 n 0 d) :=
  concatenate_ofFn_unit_apply (t := S100000x8x128) (s₁ := S100000x1x128) 1 y h rfl rfl (ix3 n k d) k rfl (ix3 n 0 d)
    (fun b hb => by
      match b with
      | ⟨0, _⟩ => rfl
      | ⟨1, _⟩ => exact absurd rfl hb
      | ⟨2, _⟩ => rfl)

/-- A broadcast piece at (n, 0, d) reads its array at (n, d). -/
theorem idx_piece (n : Fin 100000) (d : Fin 128) : idx_main_v0 (ix3 n (0 : Fin 1) d) = ix2 n d := by
  funext a; match a with | ⟨0, _⟩ => rfl | ⟨1, _⟩ => rfl

/-- The stacked array at (n, k, d) is head k of sample n at position d. -/
theorem x8_apply (x0 x1 x2 x3 x4 x5 x6 x7 : Arr) (n : Fin 100000) (k : Fin 8) (d : Fin 128) :
    val_main_v8 (F := Ideal) x0 x1 x2 x3 x4 x5 x6 x7 (ix3 n k d) = hd x0 x1 x2 x3 x4 x5 x6 x7 k n d := by
  unfold val_main_v8
  refine (concat8_apply ![val_main_v0 (F := Ideal) x0, val_main_v1 (F := Ideal) x1, val_main_v2 (F := Ideal) x2,
    val_main_v3 (F := Ideal) x3, val_main_v4 (F := Ideal) x4, val_main_v5 (F := Ideal) x5, val_main_v6 (F := Ideal) x6,
    val_main_v7 (F := Ideal) x7] _ n k d).trans ?_
  match k with
  | ⟨0, _⟩ => exact (val_main_v0_apply x0 _).trans (congrArg x0 (idx_piece n d))
  | ⟨1, _⟩ => exact (val_main_v1_apply x1 _).trans (congrArg x1 (idx_piece n d))
  | ⟨2, _⟩ => exact (val_main_v2_apply x2 _).trans (congrArg x2 (idx_piece n d))
  | ⟨3, _⟩ => exact (val_main_v3_apply x3 _).trans (congrArg x3 (idx_piece n d))
  | ⟨4, _⟩ => exact (val_main_v4_apply x4 _).trans (congrArg x4 (idx_piece n d))
  | ⟨5, _⟩ => exact (val_main_v5_apply x5 _).trans (congrArg x5 (idx_piece n d))
  | ⟨6, _⟩ => exact (val_main_v6_apply x6 _).trans (congrArg x6 (idx_piece n d))
  | ⟨7, _⟩ => exact (val_main_v7_apply x7 _).trans (congrArg x7 (idx_piece n d))

/-! ## The clamped length of a row -/

/-- The sum of squares of row (n, k). -/
theorem sq_apply (x0 x1 x2 x3 x4 x5 x6 x7 : Arr) (n : Fin 100000) (k : Fin 8) :
    val_main_call0_v1 (F := Ideal) x0 x1 x2 x3 x4 x5 x6 x7 (ix2 n k)
      = ∑ d, hd x0 x1 x2 x3 x4 x5 x6 x7 k n d * hd x0 x1 x2 x3 x4 x5 x6 x7 k n d := by
  rw [val_main_call0_v1_apply]
  show Ideal.ofBits .f32 0x00000000#32 + _ = _
  rw [Ideal.ofBits_zero_f32, zero_add]
  refine Finset.sum_congr rfl fun d _ => ?_
  have e : idx_main_call0_v1 (ix2 n k) d = ix3 n k d := by
    funext a; match a with | ⟨0, _⟩ => rfl | ⟨1, _⟩ => rfl | ⟨2, _⟩ => rfl
  rw [e, val_main_call0_v0_apply, x8_apply]
  rfl

/-- The clamped length of row (n, k). -/
theorem len_apply (x0 x1 x2 x3 x4 x5 x6 x7 : Arr) (n : Fin 100000) (k : Fin 8) :
    val_main_v11 (F := Ideal) x0 x1 x2 x3 x4 x5 x6 x7 (ix3 n k (0 : Fin 1))
      = Cert.Loss.len (hd x0 x1 x2 x3 x4 x5 x6 x7 k n) := by
  have e : idx_main_call0_v2 (ix3 n k (0 : Fin 1)) = ix2 n k := by
    funext a; match a with | ⟨0, _⟩ => rfl | ⟨1, _⟩ => rfl
  rw [val_main_v11_apply, val_main_v9_apply, val_main_call0_v2_apply, e, sq_apply, val_main_v10_apply]
  rfl

/-! ## The scaled rows and their inner products -/

/-- The scaled array at (n, k, d). -/
theorem xn_apply (x0 x1 x2 x3 x4 x5 x6 x7 : Arr) (n : Fin 100000) (k : Fin 8) (d : Fin 128) :
    val_main_v13 (F := Ideal) x0 x1 x2 x3 x4 x5 x6 x7 (ix3 n k d)
      = Cert.Loss.unit (hd x0 x1 x2 x3 x4 x5 x6 x7 k n) d := by
  have e : idx_main_v12 (ix3 n k d) = ix3 n k (0 : Fin 1) := by
    funext a; match a with | ⟨0, _⟩ => rfl | ⟨1, _⟩ => rfl | ⟨2, _⟩ => rfl
  rw [val_main_v13_apply, val_main_v12_apply, e, len_apply, x8_apply]
  rfl

/-- The inner product of scaled rows k and l of sample n. -/
theorem cc_apply (x0 x1 x2 x3 x4 x5 x6 x7 : Arr) (n : Fin 100000) (k l : Fin 8) :
    val_main_v14 (F := Ideal) x0 x1 x2 x3 x4 x5 x6 x7 (ix3 n k l)
      = Cert.Loss.corr (hd x0 x1 x2 x3 x4 x5 x6 x7 k n) (hd x0 x1 x2 x3 x4 x5 x6 x7 l n) := by
  rw [val_main_v14_apply]
  unfold Cert.Loss.corr
  refine Finset.sum_congr rfl fun d _ => ?_
  have el : lidx_main_v14 (ix3 n k l) d = ix3 n k d := by
    funext a; match a with | ⟨0, _⟩ => rfl | ⟨1, _⟩ => rfl | ⟨2, _⟩ => rfl
  have er : ridx_main_v14 (ix3 n k l) d = ix3 n l d := by
    funext a; match a with | ⟨0, _⟩ => rfl | ⟨1, _⟩ => rfl | ⟨2, _⟩ => rfl
  rw [el, er, xn_apply, xn_apply]

/-! ## The identity matrix -/

/-- The comparison of the two coordinates, as a one-bit word. -/
theorem eq_word : ∀ k l : Fin 8,
    IntOp.cmpi .eq (IntOp.addi (BitVec.ofNat 32 k.val) 0#32) (BitVec.ofNat 32 l.val) = if k = l then 1#1 else 0#1 := by
  decide

/-- The identity's entry at (k, l), whatever the sample. -/
theorem eye_apply (n : Fin 100000) (k l : Fin 8) :
    val_main_v22 (F := Ideal) (ix3 n k l) = Cert.Loss.eye k l := by
  have e : idx_main_v21 (idx_main_v22 (ix3 n k l)) = ix2 k l := by
    funext a; match a with | ⟨0, _⟩ => rfl | ⟨1, _⟩ => rfl
  rw [val_main_v22_apply, val_main_v21_apply, e, val_main_v20_apply, val_main_v19_apply, val_main_v18_apply,
    val_main_v15_apply, val_main_v16_apply, val_main_v17_apply, val_main_c_apply]
  show FloatOps.uitofp (F := Ideal) .f32 (IntOp.cmpi .eq (IntOp.addi (BitVec.ofNat 32 k.val) 0#32) (BitVec.ofNat 32 l.val)) = _
  rw [eq_word]
  unfold Cert.Loss.eye
  by_cases hkl : k = l
  · rw [if_pos hkl, if_pos hkl]
    show (((1#1 : BitVec 1).toNat : ℝ) : EReal) = 1
    simp
  · rw [if_neg hkl, if_neg hkl]
    show (((0#1 : BitVec 1).toNat : ℝ) : EReal) = 0
    simp

/-! ## The result -/

theorem result_eq (x0 x1 x2 x3 x4 x5 x6 x7 : (⟨S100000x128, .f32⟩ : BufTy).Contents (Elt Ideal)) :
    Cert.ReferenceIdeal.Read.val_main_v26 (F := Ideal) x0 x1 x2 x3 x4 x5 x6 x7
      = fun _ => Cert.Loss.loss (Cert.Loss.heads ![x0, x1, x2, x3, x4, x5, x6, x7]) := by
  funext i
  rw [val_main_v26_apply, val_main_v25_apply]
  show Ideal.div (Ideal.ofBits .f32 0x00000000#32 + _) Cert.Loss.count = _
  rw [Ideal.ofBits_zero_f32, zero_add, sum_idx3]
  unfold Cert.Loss.loss Cert.Loss.sample Cert.Loss.dev
  refine congrArg (Ideal.div · Cert.Loss.count) ?_
  refine Finset.sum_congr rfl fun n _ => Finset.sum_congr rfl fun k _ => Finset.sum_congr rfl fun l _ => ?_
  rw [val_main_v24_apply, val_main_v23_apply, cc_apply, eye_apply]
  rfl

end Cert.ReferenceIdeal.RefValue

end
-- ==== Proof.lean ====
/-
  The five claims of this certificate.

  Both programs compute one number from eight [100000, 128] arrays: every row scaled to clamped unit length, the
  inner products of one sample's eight scaled rows compared with the identity matrix, the squared differences
  summed over all samples and all 64 ordered pairs of heads, the sum divided by the number of samples
  (`Cert.Loss.loss`). The reference does it in one stroke on the stacked array; the kernel block by block over a grid,
  keeping a running total per half of the samples and adding the two halves at the end. Over the extended reals a sum
  does not depend on how it is grouped, so the two results are the same term; no finiteness is used.

  The three frames are the generated ones (for the reference: its generated run with the result dropped); the
  idealization rewrote nothing, so `preserves` is trivial; `algebraic` pairs the kernel's run, read as the loss of
  its arguments, with the reference's run, read as the loss of its arguments, the arguments agreeing.
-/
import proofs.«170730_j78932908966303_1_alg».proof.Defs
import proofs.«170730_j78932908966303_1_alg».proof.Proof.Gen.Kernel
import proofs.«170730_j78932908966303_1_alg».proof.Proof.Gen.Kernel.Frame
import proofs.«170730_j78932908966303_1_alg».proof.Proof.Gen.KernelIdeal
import proofs.«170730_j78932908966303_1_alg».proof.Proof.Gen.KernelIdeal.Frame
import proofs.«170730_j78932908966303_1_alg».proof.Proof.Gen.ReferenceIdeal
import proofs.«170730_j78932908966303_1_alg».proof.Proof.Gen.ReferenceIdeal.Run
import proofs.«170730_j78932908966303_1_alg».proof.Proof.Gen.Pre_finite_inputs
import proofs.«170730_j78932908966303_1_alg».proof.Proof.Value
import proofs.«170730_j78932908966303_1_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the loss of their own arguments; the arguments agree, so the results do. -/
theorem algebraic : Cert.algebraic_KernelIdeal_ReferenceIdeal := by
  intro m ρ m' ρ' _ hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
